-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128x64 : Shape := ⟨2, ![128, 64]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128x64 : S_.BroadcastsInDim S128x64 (![] : Fin 0 → Fin S128x64.rank)
  reducesTo_S128x64_S_d0_1 : S128x64.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  main_v18

def fn {F : FTy → Type} [FloatOps F] (main_arg0 : FVec F S100000x512 .f32) (main_arg1 : FVec F S512x128 .f32) (main_arg2 : FVec F S128x64 .f32) (main_arg3 : FVec F S3200000 .f32) (main_arg4 : IVec S3200000 32) (main_arg5 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S3200000 .f32 := Host.absf main_arg3
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_v13 main_v16
-- ==== Kernel.lean ====
abbrev S100000x512 : Shape := ⟨2, ![100000, 512]⟩
abbrev S512x128 : Shape := ⟨2, ![512, 128]⟩
abbrev S128x64 : Shape := ⟨2, ![128, 64]⟩
abbrev S3200000 : Shape := ⟨1, ![3200000]⟩
abbrev S100000x64 : Shape := ⟨2, ![100000, 64]⟩
abbrev S4000x512 : Shape := ⟨2, ![4000, 512]⟩
abbrev S4000x64 : Shape := ⟨2, ![4000, 64]⟩
abbrev S4000x128 : Shape := ⟨2, ![4000, 128]⟩
abbrev S3200000x1 : Shape := ⟨2, ![3200000, 1]⟩
abbrev S_ : Shape := ⟨0, ![]⟩
abbrev S3200000x64 : Shape := ⟨2, ![3200000, 64]⟩

abbrev nBuf : Space → Nat
  | .hbm => 39
  | .vmem => 6
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128x64, .f32⟩
  | .hbm, ⟨3, _⟩ => ⟨S3200000, .f32⟩
  | .hbm, ⟨4, _⟩ => ⟨S3200000, .i32⟩
  | .hbm, ⟨5, _⟩ => ⟨S3200000, .i32⟩
  | .hbm, ⟨6, _⟩ => ⟨S100000x64, .f32⟩
  | .hbm, ⟨7, _⟩ => ⟨S3200000x1, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x64, .f32⟩
  | .hbm, ⟨17, _⟩ => ⟨S3200000x64, .f32⟩
  | .hbm, ⟨18, _⟩ => ⟨S3200000x64, .f32⟩
  | .hbm, ⟨19, _⟩ => ⟨S_, .f32⟩
  | .hbm, ⟨20, _⟩ => ⟨S100000x64, .f32⟩
  | .hbm, ⟨21, _⟩ => ⟨S3200000x1, .i32⟩
  | .hbm, ⟨22, _⟩ => ⟨S100000x64, .f32⟩
  | .hbm, ⟨23, _⟩ => ⟨S3200000x1, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x64, .f32⟩
  | .hbm, ⟨33, _⟩ => ⟨S3200000x64, .f32⟩
  | .hbm, ⟨34, _⟩ => ⟨S3200000x64, .f32⟩
  | .hbm, ⟨35, _⟩ => ⟨S_, .f32⟩
  | .hbm, ⟨36, _⟩ => ⟨S100000x64, .f32⟩
  | .hbm, ⟨37, _⟩ => ⟨S3200000x1, .i32⟩
  | .hbm, ⟨38, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S128x64, .f32⟩
  | .local _ .vmem, ⟨4, _⟩ => ⟨S4000x64, .f32⟩
  | .local _ .vmem, ⟨5, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  dot_S4000x512_S512x128_S4000x128_1_0_0_1_n_n_wf : DotDims.WF S4000x512 S512x128 S4000x128 [1] [0] [0] [1] [] []
  dot_S4000x128_S128x64_S4000x64_1_0_0_1_n_n_wf : DotDims.WF S4000x128 S128x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128x64 : Shape := ⟨2, ![128, 64]⟩
abbrev S3200000 : Shape := ⟨1, ![3200000]⟩
abbrev S100000x128 : Shape := ⟨2, ![100000, 128]⟩
abbrev S_ : Shape := ⟨0, ![]⟩
abbrev S100000x64 : Shape := ⟨2, ![100000, 64]⟩
abbrev S3200000x1 : Shape := ⟨2, ![3200000, 1]⟩
abbrev S3200000x64 : Shape := ⟨2, ![3200000, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128x64, .f32⟩
  | .hbm, ⟨3, _⟩ => ⟨S3200000, .f32⟩
  | .hbm, ⟨4, _⟩ => ⟨S3200000, .i32⟩
  | .hbm, ⟨5, _⟩ => ⟨S3200000, .i32⟩
  | .hbm, ⟨6, _⟩ => ⟨S100000x128, .f32⟩
  | .hbm, ⟨7, _⟩ => ⟨S_, .f32⟩
  | .hbm, ⟨8, _⟩ => ⟨S100000x128, .f32⟩
  | .hbm, ⟨9, _⟩ => ⟨S100000x128, .f32⟩
  | .hbm, ⟨10, _⟩ => ⟨S100000x64, .f32⟩
  | .hbm, ⟨11, _⟩ => ⟨S3200000x1, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x64, .f32⟩
  | .hbm, ⟨21, _⟩ => ⟨S3200000x64, .f32⟩
  | .hbm, ⟨22, _⟩ => ⟨S3200000x64, .f32⟩
  | .hbm, ⟨23, _⟩ => ⟨S_, .f32⟩
  | .hbm, ⟨24, _⟩ => ⟨S100000x64, .f32⟩
  | .hbm, ⟨25, _⟩ => ⟨S3200000x1, .i32⟩
  | .hbm, ⟨26, _⟩ => ⟨S100000x64, .f32⟩
  | .hbm, ⟨27, _⟩ => ⟨S3200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x64, .f32⟩
  | .hbm, ⟨37, _⟩ => ⟨S3200000x64, .f32⟩
  | .hbm, ⟨38, _⟩ => ⟨S3200000x64, .f32⟩
  | .hbm, ⟨39, _⟩ => ⟨S_, .f32⟩
  | .hbm, ⟨40, _⟩ => ⟨S100000x64, .f32⟩
  | .hbm, ⟨41, _⟩ => ⟨S3200000x1, .i32⟩
  | .hbm, ⟨42, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  dot_S100000x512_S512x128_S100000x128_1_0_0_1_n_n_wf : DotDims.WF S100000x512 S512x128 S100000x128 [1] [0] [0] [1] [] []
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.DenseSpec.lean ====
/-
  The function both programs compute.

  Dense part: for a node `r` and a class `q`,
      dense x w₀ w₁ (r, q) = ∑ k < 128, max (∑ j < 512, x (r, j) · w₀ (j, k)) 0 · w₁ (k, q),
  a two-layer perceptron with a rectifier between the layers, row by row, on the extended reals. Nothing here needs
  a sum reordered or a factor moved, so no input has to be finite.

  Graph part: one round sends a node table `h` to the table whose row `d` is the sum, over the edges `e` with
  destination `d`, of `val e · h (src e)` (a gather of rows by source, a scaling by the edge's weight, a scatter-add by
  destination, a negative source index first shifted by the number of nodes). Both programs apply two rounds to the
  dense part's result with the same operations, so the rounds are kept as ONE function of that result and never
  opened.
-/
import Idealize.ShloMosaic.PureOps.Ideal
import Idealize.ShloMosaic.Lib.ValueIdx

noncomputable section

open Idealize.ShloMosaic Idealize.ShloMosaic.ValueIdx

namespace Cert.Spec

/-- Node features, first-layer weights, second-layer weights, node scores. -/
abbrev SX : Shape := ⟨2, ![100000, 512]⟩
abbrev SW0 : Shape := ⟨2, ![512, 128]⟩
abbrev SW1 : Shape := ⟨2, ![128, 64]⟩
abbrev SH : Shape := ⟨2, ![100000, 64]⟩
/-- One entry per edge; the same as a column; one row of scores per edge; the shape of a scalar. -/
abbrev SE : Shape := ⟨1, ![3200000]⟩
abbrev SE1 : Shape := ⟨2, ![3200000, 1]⟩
abbrev SEH : Shape := ⟨2, ![3200000, 64]⟩
abbrev S0 : Shape := ⟨0, ![]⟩

/-- The hidden layer at node `r`, unit `k`: the rectified inner product of the node's features with column `k`. The
    rectifier's zero is kept as the float word both programs print. -/
def hidden (x : SX.Idx → EReal) (w0 : SW0.Idx → EReal) (r : Fin 100000) (k : Fin 128) : EReal :=
  max (∑ j : Fin 512, x (ix2 r j) * w0 (ix2 j k)) (Ideal.ofBits .f32 0x00000000#32)

/-- The score of node `r` for class `q`. -/
def score (x : SX.Idx → EReal) (w0 : SW0.Idx → EReal) (w1 : SW1.Idx → EReal) (r : Fin 100000) (q : Fin 64) : EReal :=
  ∑ k : Fin 128, hidden x w0 r k * w1 (ix2 k q)

/-- The dense part as one array. -/
def dense (x : SX.Idx → EReal) (w0 : SW0.Idx → EReal) (w1 : SW1.Idx → EReal) : SH.Idx → EReal :=
  fun i => score x w0 w1 ⟨(i 0).val, (i 0).isLt⟩ ⟨(i 1).val, (i 1).isLt⟩

theorem dense_ix2 (x : SX.Idx → EReal) (w0 : SW0.Idx → EReal) (w1 : SW1.Idx → EReal) (r : Fin 100000) (q : Fin 64) :
    dense x w0 w1 (ix2 r q) = score x w0 w1 r q := rfl

/-- One round of neighbour aggregation, over whatever dimension records and shape facts a program printed for its
    gather, its scatter-add and its broadcasts. -/
def round (g : GatherDims SH SE1 SEH) (sc : ScatterDims SH SE1 SEH)
    (b1 : SE.BroadcastsInDim SE1 (![0] : Fin 1 → Fin SE1.rank)) (b0 : S0.BroadcastsInDim SE (![] : Fin 0 → Fin SE.rank))
    (b2 : SE1.BroadcastsInDim SEH (![0, 1] : Fin 2 → Fin SEH.rank)) (b3 : S0.BroadcastsInDim SH (![] : Fin 0 → Fin SH.rank))
    (val : (⟨SE, .f32⟩ : BufTy).Contents (Elt Ideal)) (src dst : (⟨SE, .i32⟩ : BufTy).Contents (Elt Ideal))
    (h : (⟨SH, .f32⟩ : BufTy).Contents (Elt Ideal)) : (⟨SH, .f32⟩ : BufTy).Contents (Elt Ideal) :=
  Host.scatterAdd (F := Ideal) sc (broadcastInDim SH ![] b3 (constant (F := Ideal) S0 .f32 0x00000000#32))
    (broadcastInDim SE1 ![0] b1 dst)
    (mulf (F := Ideal) (broadcastInDim SEH ![0, 1] b2 (broadcastInDim SE1 ![0] b1 val))
      (Host.gather g h (broadcastInDim SE1 ![0] b1
        (select (cmpi .slt src (broadcastInDim SE ![] b0 (constantI S0 32 0#32)))
          (addi src (broadcastInDim SE ![] b0 (constantI S0 32 100000#32))) src))))

/-- The graph part: two rounds. -/
def aggregate (g : GatherDims SH SE1 SEH) (sc : ScatterDims SH SE1 SEH)
    (b1 : SE.BroadcastsInDim SE1 (![0] : Fin 1 → Fin SE1.rank)) (b0 : S0.BroadcastsInDim SE (![] : Fin 0 → Fin SE.rank))
    (b2 : SE1.BroadcastsInDim SEH (![0, 1] : Fin 2 → Fin SEH.rank)) (b3 : S0.BroadcastsInDim SH (![] : Fin 0 → Fin SH.rank))
    (val : (⟨SE, .f32⟩ : BufTy).Contents (Elt Ideal)) (src dst : (⟨SE, .i32⟩ : BufTy).Contents (Elt Ideal))
    (h : (⟨SH, .f32⟩ : BufTy).Contents (Elt Ideal)) : (⟨SH, .f32⟩ : BufTy).Contents (Elt Ideal) :=
  round g sc b1 b0 b2 b3 val src dst (round g sc b1 b0 b2 b3 val src dst h)

end Cert.Spec

end
-- ==== Proof.KernelBody.lean ====
/-
  What one grid point of the dense kernel stores, read at an entry of its block.

  The body loads a block of 4000 rows of the features and both weight matrices whole, multiplies the rows by the first
  matrix into a zero accumulator, rectifies, multiplies by the second matrix into a zero accumulator, and stores the
  result. On the extended reals the changes of float format are the identity and a product into a zero accumulator
  is the plain sum over the contracted axis, so entry (p, q) of the stored block is
      ∑ k < 128, max (∑ j < 512, x (p, j) · w₀ (j, k)) 0 · w₁ (k, q)
  of the three loaded blocks.
-/
import proofs.«429167_j5849745457616_3_alg».proof.Proof.Gen.KernelIdeal.Skeleton
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The operand indices of the two products, axis by axis -/

theorem first_lhs_0 (i : S4000x128.Idx) (q : dot_S4000x512_S512x128_S4000x128_1_0_0_1_n_n.contr.Idx) :
    (dot_S4000x512_S512x128_S4000x128_1_0_0_1_n_n.lhsIdx i q 0).val = (i 0).val := by
  unfold DotDims.lhsIdx
  rw [dif_neg (show ¬(0 : Fin S4000x512.rank) ∈ dot_S4000x512_S512x128_S4000x128_1_0_0_1_n_n.lhsBatch by decide), dif_pos (show (0 : Fin S4000x512.rank) ∈ dot_S4000x512_S512x128_S4000x128_1_0_0_1_n_n.lhsNonContracting by decide)]
  rfl
theorem first_lhs_1 (i : S4000x128.Idx) (q : dot_S4000x512_S512x128_S4000x128_1_0_0_1_n_n.contr.Idx) :
    (dot_S4000x512_S512x128_S4000x128_1_0_0_1_n_n.lhsIdx i q 1).val = (q ⟨0, by decide⟩).val :=
  dot_S4000x512_S512x128_S4000x128_1_0_0_1_n_n.lhsIdx_val_of_single rfl i q
theorem first_rhs_0 (i : S4000x128.Idx) (q : dot_S4000x512_S512x128_S4000x128_1_0_0_1_n_n.contr.Idx) :
    (dot_S4000x512_S512x128_S4000x128_1_0_0_1_n_n.rhsIdx i q 0).val = (q ⟨0, by decide⟩).val :=
  dot_S4000x512_S512x128_S4000x128_1_0_0_1_n_n.rhsIdx_val_of_single rfl i q
theorem first_rhs_1 (i : S4000x128.Idx) (q : dot_S4000x512_S512x128_S4000x128_1_0_0_1_n_n.contr.Idx) :
    (dot_S4000x512_S512x128_S4000x128_1_0_0_1_n_n.rhsIdx i q 1).val = (i 1).val := by
  unfold DotDims.rhsIdx
  rw [dif_neg (show ¬(1 : Fin S512x128.rank) ∈ dot_S4000x512_S512x128_S4000x128_1_0_0_1_n_n.rhsBatch by decide), dif_pos (show (1 : Fin S512x128.rank) ∈ dot_S4000x512_S512x128_S4000x128_1_0_0_1_n_n.rhsNonContracting by decide)]
  rfl

theorem second_lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem second_lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem second_rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem second_rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-! ## The two products at an entry -/

/-- Rows times the first weight matrix, into a zero accumulator: entry (p, c) is the inner product of row `p` with column `c`. -/
theorem first_apply (l : FVec Ideal S4000x512 .bf16) (r : FVec Ideal S512x128 .bf16) (p : Fin 4000) (c : Fin 128) :
    matmul dot_S4000x512_S512x128_S4000x128_1_0_0_1_n_n none l r (constant (F := Ideal) S4000x128 .f32 0x00000000#32) (ix2 p c)
      = ∑ k : Fin 512, l (ix2 p k) * r (ix2 k c) := by
  simp only [matmul]
  rw [Ideal.matmul_constant_zero_apply, ← Equiv.sum_comp (contrEquiv1 dot_S4000x512_S512x128_S4000x128_1_0_0_1_n_n 512 rfl rfl).symm]
  refine Finset.sum_congr rfl fun k _ => ?_
  have hk := contrEquiv1_symm_val dot_S4000x512_S512x128_S4000x128_1_0_0_1_n_n 512 rfl rfl k
  have el : dot_S4000x512_S512x128_S4000x128_1_0_0_1_n_n.lhsIdx (ix2 p c) ((contrEquiv1 dot_S4000x512_S512x128_S4000x128_1_0_0_1_n_n 512 rfl rfl).symm k) = ix2 p k := funext fun a => Fin.ext (by
    match a with
    | ⟨0, _⟩ => exact first_lhs_0 _ _
    | ⟨1, _⟩ => exact (first_lhs_1 _ _).trans hk)
  have er : dot_S4000x512_S512x128_S4000x128_1_0_0_1_n_n.rhsIdx (ix2 p c) ((contrEquiv1 dot_S4000x512_S512x128_S4000x128_1_0_0_1_n_n 512 rfl rfl).symm k) = ix2 k c := funext fun a => Fin.ext (by
    match a with
    | ⟨0, _⟩ => exact (first_rhs_0 _ _).trans hk
    | ⟨1, _⟩ => exact first_rhs_1 _ _)
  rw [el, er]

/-- Hidden rows times the second weight matrix, into a zero accumulator. -/
theorem second_apply (l : FVec Ideal S4000x128 .bf16) (r : FVec Ideal S128x64 .bf16) (p : Fin 4000) (c : Fin 64) :
    matmul dot_S4000x128_S128x64_S4000x64_1_0_0_1_n_n none l r (constant (F := Ideal) S4000x64 .f32 0x00000000#32) (ix2 p c)
      = ∑ k : Fin 128, l (ix2 p k) * r (ix2 k c) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p c) ((contrEquiv1 dot_S4000x128_S128x64_S4000x64_1_0_0_1_n_n 128 rfl rfl).symm k) = ix2 p k := funext fun a => Fin.ext (by
    match a with
    | ⟨0, _⟩ => exact second_lhs_0 _ _
    | ⟨1, _⟩ => exact (second_lhs_1 _ _).trans hk)
  have er : dot_S4000x128_S128x64_S4000x64_1_0_0_1_n_n.rhsIdx (ix2 p c) ((contrEquiv1 dot_S4000x128_S128x64_S4000x64_1_0_0_1_n_n 128 rfl rfl).symm k) = ix2 k c := funext fun a => Fin.ext (by
    match a with
    | ⟨0, _⟩ => exact (second_rhs_0 _ _).trans hk
    | ⟨1, _⟩ => exact second_rhs_1 _ _)
  rw [el, er]

/-! ## The stored block at an entry -/

/-- Entry (p, q) of what the body stores, from the three loaded blocks. -/
theorem payload_apply (x0 : Vec Ideal S4000x512 .f32) (x1 : Vec Ideal S512x128 .f32) (x2 : Vec Ideal S128x64 .f32)
    (p : Fin 4000) (q : Fin 64) :
    k0_pay1 (F := Ideal) x0 x1 x2 (ix2 p q)
      = ∑ k : Fin 128, max (∑ j : Fin 512, x0 (ix2 p j) * x1 (ix2 j k)) (Ideal.ofBits .f32 0x00000000#32) * x2 (ix2 k q) := by
  unfold k0_pay1
  refine (second_apply _ _ p q).trans ?_
  refine Finset.sum_congr rfl fun k _ => ?_
  refine congrArg (· * x2 (ix2 k q)) ?_
  refine congrArg (max · (Ideal.ofBits .f32 0x00000000#32)) ?_
  exact first_apply _ _ p k

end Cert.KernelIdeal.Body

end
-- ==== Proof.KernelArray.lean ====
/-
  The dense kernel's result array, and the whole program's result.

  Grid point `t` (of 25) reads rows 4000·t … 4000·t + 3999 of the features and both weight matrices whole, and writes
  back rows 4000·t … of the scores: by the body's entry formula its block is the restriction of `Spec.dense` of the
  three argument arrays to those rows. The 25 blocks tile the 100000 rows, so the array the region leaves is
  `Spec.dense` of the arguments; the host lines after the region are the two aggregation rounds applied to it.
-/
import proofs.«429167_j5849745457616_3_alg».proof.Proof.Gen.KernelIdeal.Frame
import proofs.«429167_j5849745457616_3_alg».proof.Proof.KernelBody
import proofs.«429167_j5849745457616_3_alg».proof.Proof.DenseSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Array

open Cert.KernelIdeal Cert.KernelIdeal.Gen Cert.Spec

variable (m : (ℓ : Loc nD τ sig) → Buf (Elt Ideal) ℓ) (ρ : Dev nD → PrngReg)

theorem hz : (![0, 0] : Fin 2 → Nat) = fun _ => 0 := funext fun a => by fin_cases a <;> rfl

/-- The block indices at point `t`: the features' and the scores' windows move down the rows with `t`, the two
    weight matrices stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t` is rows 4000·t … of the array. -/
theorem features_block (c : Dev nD) (t : Fin cfg0.N) (y : S4000x512.Idx) (i : S100000x512.Idx)
    (h0 : (i 0).val = 4000 * t.val + (y 0).val) (h1 : (i 1).val = (y 1).val) :
    (iblk m c 0 t : Vec Ideal S4000x512 .f32) y = (V m c main_arg0 : S100000x512.Idx → Elt Ideal .f32) i := by
  obtain ⟨e0, e1, -⟩ := index_facts t
  unfold iblk
  rw [View.read_apply]
  show V m c main_arg0 _ = V m c main_arg0 _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 512 + 1 * (y 1).val = (i 1).val; rw [e1, h1]; omega

/-- The first weight matrix's block at every point is the matrix. -/
theorem w0_block (c : Dev nD) (t : Fin cfg0.N) (y : S512x128.Idx) :
    (iblk m c 1 t : Vec Ideal S512x128 .f32) y = (V m c main_arg1 : S512x128.Idx → Elt Ideal .f32) y := by
  obtain ⟨-, -, e0, e1, -⟩ := index_facts t
  unfold iblk
  rw [View.read_apply]
  show V m c main_arg1 _ = V m c main_arg1 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 128 + 1 * (y 1).val = (y 1).val; rw [e1]; omega

/-- The second weight matrix's block at every point is the matrix. -/
theorem w1_block (c : Dev nD) (t : Fin cfg0.N) (y : S128x64.Idx) :
    (iblk m c 2 t : Vec Ideal S128x64 .f32) y = (V m c main_arg2 : S128x64.Idx → Elt Ideal .f32) y := by
  obtain ⟨-, -, -, -, e0, e1, -⟩ := index_facts t
  unfold iblk
  rw [View.read_apply]
  show V m c main_arg2 _ = V m c main_arg2 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- Entry `y` of what point `t` stores is the score at row 4000·t + y₀, class y₁. -/
theorem stored_entry (c : Dev nD) (t : Fin cfg0.N) (y : S4000x64.Idx) (i : S100000x64.Idx)
    (h0 : (i 0).val = 4000 * t.val + (y 0).val) (h1 : (i 1).val = (y 1).val) :
    k0_pay1 (F := Ideal) (iblk m c 0 t) (iblk m c 1 t) (iblk m c 2 t) y
      = dense (V m c main_arg0) (V m c main_arg1) (V m c main_arg2) i := by
  obtain ⟨p, q, rfl⟩ : ∃ (p : Fin 4000) (q : Fin 64), y = ix2 p q := ⟨y 0, y 1, eq_ix2 y⟩
  refine (Cert.KernelIdeal.Body.payload_apply _ _ _ p q).trans ?_
  unfold Cert.Spec.dense Cert.Spec.score Cert.Spec.hidden
  refine Finset.sum_congr rfl fun k _ => ?_
  have hq : (⟨(i 1).val, (i 1).isLt⟩ : Fin 64) = q := Fin.ext h1
  rw [hq, w1_block m c t (ix2 k q)]
  refine congrArg (· * _) ?_
  refine congrArg (max · _) ?_
  refine Finset.sum_congr rfl fun j _ => ?_
  rw [w0_block m c t (ix2 j k), features_block m c t (ix2 p j) (ix2 ⟨(i 0).val, (i 0).isLt⟩ j) h0 rfl]

/-- WHAT POINT `t` WRITES BACK is block `t` of the dense part of the argument arrays. -/
theorem flushed_eq (c : Dev nD) (t : Fin cfg0.N) :
    (dats m 0 c).flushed 3 t
      = ((cfg0.win 3).blk t).view.read (Elt Ideal) (dense (V m c main_arg0) (V m c main_arg1) (V m c main_arg2)) := by
  obtain ⟨-, -, -, -, -, -, e0, e1⟩ := index_facts t
  show (cfg0.win 3).cut (grid0.coords t) ((dats m 0 c).after 3 t) = _
  rw [after0_3]
  unfold out0_3
  rw [View.canon_unit_zero hz]
  simp only [View.ld_unit_zero (S := S4000x512) hz, View.ld_unit_zero (S := S512x128) hz, View.ld_unit_zero (S := S128x64) hz]
  funext j
  refine stored_entry m c t j (((cfg0.win 3).blk t).view.emb j) ?_ ?_
  · show win0_3.index t (0 : Fin 2) * 4000 + 1 * (j 0).val = _; rw [e0]; omega
  · show win0_3.index t (1 : Fin 2) * 64 + 1 * (j 1).val = _; rw [e1]; omega

/-- An index of the scores is in point `t`'s block iff each coordinate is in the block's range on its axis. -/
theorem mem_block (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v0).slice (win0_3.rect t)).set ↔ _
  rw [View.set_slice_whole, Rect.mem_set_unit]
  exact Iff.rfl

/-- Row r is written back by point r / 4000. -/
theorem covered (i : S100000x64.Idx) :
    ∃ t : Fin cfg0.N, (cfg0.win 3).flush t = true ∧ i ∈ ((cfg0.win 3).blk t).view.set := by
  have hN : cfg0.N = 25 := N_0
  have hi0 : (i 0).val < 100000 := (i 0).isLt
  have hi1 : (i 1).val < 64 := (i 1).isLt
  let t : Fin cfg0.N := ⟨(i 0).val / 4000, by rw [hN]; omega⟩
  obtain ⟨-, -, -, -, -, -, e0, e1⟩ := index_facts t
  have ht : t.val = (i 0).val / 4000 := rfl
  refine ⟨t, flush0_3 t, ?_⟩
  rw [mem_block]
  intro a
  match a with
  | ⟨0, _⟩ => show win0_3.index t (0 : Fin 2) * 4000 ≤ (i 0).val ∧ (i 0).val < win0_3.index t (0 : Fin 2) * 4000 + 4000; rw [e0, ht]; omega
  | ⟨1, _⟩ => show win0_3.index t (1 : Fin 2) * 64 ≤ (i 1).val ∧ (i 1).val < win0_3.index t (1 : Fin 2) * 64 + 64; rw [e1]; omega

/-- THE SCORES after the region: the dense part of the argument arrays. -/
theorem final (c : Dev nD) :
    (dats m 0 c).arrAt 3 cfg0.N = dense (V m c main_arg0) (V m c main_arg1) (V m c main_arg2) :=
  (dats m 0 c).arrAt_eq_of_cover 3 _ (fun t _ => flushed_eq m c t) covered

/-! ## The host lines after the region -/

theorem flatten_one {α : Type} (l : List α) : [l].flatten = l := by simp

set_option maxHeartbeats 1000000 in
/-- The 32 host lines after the region, run from ANY contents `W` of the buffers, leave in the result buffer the two
    aggregation rounds of what the scores' buffer held, with the edge weights and the edge ends read where `W` has
    them. -/
theorem after_tail (W : Valuation τ sig (Elt Ideal)) :
    StableHlo.after (hostOps1 (F := Ideal)) W (Proc.devRef .tc main_v26)
      = aggregate gather_S100000x64_S3200000x1_S3200000x64_1_0_n_n_0_1_164 scatter_S100000x64_S3200000x1_S3200000x64_1_0_0_1
          bcast_S3200000_S3200000x1_0 bcast_S_S3200000 bcast_S3200000x1_S3200000x64_0_1 bcast_S_S100000x64
          (W (Proc.devRef .tc main_arg3)) (W (Proc.devRef .tc main_arg4)) (W (Proc.devRef .tc main_arg5)) (W (Proc.devRef .tc main_v0)) := by
  after_results_simp
  rfl

/-- What the frame run leaves in the result buffer: the two rounds of the dense part of the arguments. -/
theorem tail_result (c : Dev nD) :
    Pipeline.afterTail₀ cfgs (dats m) 0 (V0 m) [hostOps1] c main_v26
      = aggregate gather_S100000x64_S3200000x1_S3200000x64_1_0_n_n_0_1_164 scatter_S100000x64_S3200000x1_S3200000x64_1_0_0_1
          bcast_S3200000_S3200000x1_0 bcast_S_S3200000 bcast_S3200000x1_S3200000x64_0_1 bcast_S_S100000x64
          (m ((c : Thread nD τ).loc main_arg3)) (m ((c : Thread nD τ).loc main_arg4)) (m ((c : Thread nD τ).loc main_arg5))
          (dense (m ((c : Thread nD τ).loc main_arg0)) (m ((c : Thread nD τ).loc main_arg1)) (m ((c : Thread nD τ).loc main_arg2))) := by
  unfold Pipeline.afterTail₀
  rw [flatten_one, after_tail]
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  have e0 : Pipeline.withArrays (cfgs 0).spec c (V0 m c) (fun w => (dats m 0 c).arrAt w (cfgs 0).N) (Proc.devRef .tc main_v0)
      = dense (m ((c : Thread nD τ).loc main_arg0)) (m ((c : Thread nD τ).loc main_arg1)) (m ((c : Thread nD τ).loc main_arg2)) :=
    (Pipeline.withArrays_arr spec0 launch0.win.arr_inj c _ _ 3).trans ((final m c).trans (by rw [V_main_arg0, V_main_arg1, V_main_arg2]))
  rw [e3, e4, e5, e0]

/-! ## The run -/

/-- Every weakly fair execution of the program ends with the result buffer at the two rounds of the dense part of the
    arguments, and the arguments as they were. -/
theorem run : θ_run defs (onTc (τ := τ) (main (F := Ideal))) ⟨m, fun _ => 0, ρ⟩ fun r => ∀ c : Dev nD,
      r.2.mem ((c : Thread nD τ).loc main_v26)
        = aggregate gather_S100000x64_S3200000x1_S3200000x64_1_0_n_n_0_1_164 scatter_S100000x64_S3200000x1_S3200000x64_1_0_0_1
          bcast_S3200000_S3200000x1_0 bcast_S_S3200000 bcast_S3200000x1_S3200000x64_0_1 bcast_S_S100000x64
          (m ((c : Thread nD τ).loc main_arg3)) (m ((c : Thread nD τ).loc main_arg4)) (m ((c : Thread nD τ).loc main_arg5))
          (dense (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v26 (Pipeline.mem_restRefs_of main_v26 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Array

end
-- ==== Proof.ReferenceValue.lean ====
/-
  The reference's result as the same function of the arguments.

  The reference multiplies the features by the first weight matrix on the host, rectifies (an outlined `relu`: the
  maximum with a broadcast zero), multiplies by the second matrix, and applies the two aggregation rounds. Read at an
  entry, its two host products are the sums over the contracted axis, so its dense part is `Spec.dense` of the
  arguments entry by entry; its rounds are `Spec.aggregate` over its own dimension records.
-/
import proofs.«429167_j5849745457616_3_alg».proof.Proof.Gen.ReferenceIdeal.Read
import proofs.«429167_j5849745457616_3_alg».proof.Proof.DenseSpec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec

/-- The reference's dense part, entry by entry, is `Spec.dense`. -/
theorem dense_eq (x0 : (⟨S100000x512, .f32⟩ : BufTy).Contents (Elt Ideal)) (x1 : (⟨S512x128, .f32⟩ : BufTy).Contents (Elt Ideal))
    (x2 : (⟨S128x64, .f32⟩ : BufTy).Contents (Elt Ideal)) :
    val_main_v2 (F := Ideal) x0 x1 x2 = dense x0 x1 x2 := by
  funext i
  have el2 : ∀ k : Fin 128, lidx_main_v2 i k = ix2 (⟨(i 0).val, (i 0).isLt⟩ : Fin 100000) k := fun k =>
    funext fun a => Fin.ext (by match a with | ⟨0, _⟩ => rfl | ⟨1, _⟩ => rfl)
  have er2 : ∀ k : Fin 128, ridx_main_v2 i k = ix2 k (⟨(i 1).val, (i 1).isLt⟩ : Fin 64) := fun k =>
    funext fun a => Fin.ext (by match a with | ⟨0, _⟩ => rfl | ⟨1, _⟩ => rfl)
  have el0 : ∀ (k : Fin 128) (j : Fin 512), lidx_main_v0 (ix2 (⟨(i 0).val, (i 0).isLt⟩ : Fin 100000) k) j = ix2 (⟨(i 0).val, (i 0).isLt⟩ : Fin 100000) j := fun k j =>
    funext fun a => Fin.ext (by match a with | ⟨0, _⟩ => rfl | ⟨1, _⟩ => rfl)
  have er0 : ∀ (k : Fin 128) (j : Fin 512), ridx_main_v0 (ix2 (⟨(i 0).val, (i 0).isLt⟩ : Fin 100000) k) j = ix2 j k := fun k j =>
    funext fun a => Fin.ext (by match a with | ⟨0, _⟩ => rfl | ⟨1, _⟩ => rfl)
  rw [val_main_v2_apply]
  unfold Cert.Spec.dense Cert.Spec.score Cert.Spec.hidden
  refine Finset.sum_congr rfl fun k _ => ?_
  rw [val_main_v1_apply, val_main_v0_apply, val_main_call0_v0_apply, val_main_call0_cst_apply, el2, er2]
  simp only [el0, er0]
  rfl

/-- The reference's whole result: the two rounds, over its own records, of its dense part. -/
theorem result_eq (x0 : (⟨S100000x512, .f32⟩ : BufTy).Contents (Elt Ideal)) (x1 : (⟨S512x128, .f32⟩ : BufTy).Contents (Elt Ideal))
    (x2 : (⟨S128x64, .f32⟩ : BufTy).Contents (Elt Ideal)) (x3 : (⟨S3200000, .f32⟩ : BufTy).Contents (Elt Ideal))
    (x4 x5 : (⟨S3200000, .i32⟩ : BufTy).Contents (Elt Ideal)) :
    val_main_v28 (F := Ideal) x0 x1 x2 x3 x4 x5
      = aggregate gather_S100000x64_S3200000x1_S3200000x64_1_0_n_n_0_1_164 scatter_S100000x64_S3200000x1_S3200000x64_1_0_0_1
          bcast_S3200000_S3200000x1_0 bcast_S_S3200000 bcast_S3200000x1_S3200000x64_0_1 bcast_S_S100000x64 x3 x4 x5 (dense x0 x1 x2) := by
  rw [← dense_eq]
  rfl

end Cert.ReferenceIdeal.RefValue

end
-- ==== Proof.lean ====
/-
  A two-layer perceptron over node features followed by two rounds of neighbour aggregation over a graph's edge list:
  the kernel computes the perceptron in a pipelined region (blocks of 4000 rows, both weight matrices resident, the
  products taken on operands narrowed to a shorter float format and accumulated from zero) and leaves the aggregation
  to host operations; the reference does everything with host operations.

  On the extended reals a change of float format is the identity and a product accumulated from zero is the sum over
  the contracted axis, so both dense parts are, entry by entry,
      ∑ k < 128, max (∑ j < 512, x (r, j) · w₀ (j, k)) 0 · w₁ (k, q)
  (`Spec.dense`) — the same sums in the same order, so no law of arithmetic is used and no input needs to be finite.
  The aggregation rounds are the same host operations in both programs, over dimension records that differ only in
  the namespace that printed them; they are carried as ONE function (`Spec.aggregate`) of the dense part and of the
  edge arrays and never opened, so an edge index outside the node range means whatever the gather and the
  scatter-add make of it, on both sides alike.

  The kernel's side: KernelBody.lean (the stored block at an entry), KernelArray.lean (the blocks tile the array; the
  host lines after the region; the run). The reference's side: ReferenceValue.lean over the reference's run read
  back operation by operation. The three frames: the two kernels' launches, and the reference's run with the
  result dropped. The idealization rewrote nothing, so `preserves` is trivial.
-/
import proofs.«429167_j5849745457616_3_alg».proof.Defs
import proofs.«429167_j5849745457616_3_alg».proof.Proof.Gen.Kernel
import proofs.«429167_j5849745457616_3_alg».proof.Proof.Gen.Kernel.Skeleton
import proofs.«429167_j5849745457616_3_alg».proof.Proof.Gen.Kernel.Launch
import proofs.«429167_j5849745457616_3_alg».proof.Proof.Gen.Kernel.Points
import proofs.«429167_j5849745457616_3_alg».proof.Proof.Gen.Kernel.Frame
import proofs.«429167_j5849745457616_3_alg».proof.Proof.Gen.KernelIdeal
import proofs.«429167_j5849745457616_3_alg».proof.Proof.Gen.KernelIdeal.Skeleton
import proofs.«429167_j5849745457616_3_alg».proof.Proof.Gen.KernelIdeal.Launch
import proofs.«429167_j5849745457616_3_alg».proof.Proof.Gen.KernelIdeal.Points
import proofs.«429167_j5849745457616_3_alg».proof.Proof.Gen.KernelIdeal.Frame
import proofs.«429167_j5849745457616_3_alg».proof.Proof.Gen.ReferenceIdeal
import proofs.«429167_j5849745457616_3_alg».proof.Proof.Gen.ReferenceIdeal.Run
import proofs.«429167_j5849745457616_3_alg».proof.Proof.Gen.ReferenceIdeal.Read
import proofs.«429167_j5849745457616_3_alg».proof.Proof.Gen.Pre_finite_inputs
import proofs.«429167_j5849745457616_3_alg».proof.Proof.DenseSpec
import proofs.«429167_j5849745457616_3_alg».proof.Proof.KernelArray
import proofs.«429167_j5849745457616_3_alg».proof.Proof.ReferenceValue
import Idealize.ShloMosaic.Adequacy
import Idealize.ShloMosaic.Init

noncomputable section

namespace Cert.Proof

open Idealize.ShloMosaic Idealize.SL.Sem

/-- The two programs' gathers take a row of 64 scores per edge, by the same dimension numbers. -/
theorem gather_eq : Cert.ReferenceIdeal.gather_S100000x64_S3200000x1_S3200000x64_1_0_n_n_0_1_164 = Cert.KernelIdeal.gather_S100000x64_S3200000x1_S3200000x64_1_0_n_n_0_1_164 := rfl

/-- The two programs' scatter-adds add a row of 64 scores per edge, by the same dimension numbers. -/
theorem scatter_eq : Cert.ReferenceIdeal.scatter_S100000x64_S3200000x1_S3200000x64_1_0_0_1 = Cert.KernelIdeal.scatter_S100000x64_S3200000x1_S3200000x64_1_0_0_1 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the two aggregation rounds of `Spec.dense` of the arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5⟩ := hagree c
  rw [(h c).1, Cert.ReferenceIdeal.Read.val_main_v28_eq, Cert.ReferenceIdeal.RefValue.result_eq, e0, e1, e2, e3, e4, e5,
    gather_eq, scatter_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
